-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32 : Shape := ⟨2, ![1024, 32]⟩
abbrev S4096x32 : Shape := ⟨2, ![4096, 32]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S1024x32 .f32) (main_arg1 : FVec F S4096x32 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  main_v8
-- ==== Kernel.lean ====
abbrev S1024x32 : Shape := ⟨2, ![1024, 32]⟩
abbrev S4096x32 : Shape := ⟨2, ![4096, 32]⟩
abbrev S1024 : Shape := ⟨1, ![1024]⟩
abbrev S128x32 : Shape := ⟨2, ![128, 32]⟩
abbrev S128 : Shape := ⟨1, ![128]⟩
abbrev S32x4096 : Shape := ⟨2, ![32, 4096]⟩
abbrev S128x4096 : Shape := ⟨2, ![128, 4096]⟩
abbrev S128x1 : Shape := ⟨2, ![128, 1]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1024x32, .f32⟩
  | .hbm, ⟨1, _⟩ => ⟨S4096x32, .f32⟩
  | .hbm, ⟨2, _⟩ => ⟨S1024, .f32⟩
  | .local _ .vmem, ⟨0, _⟩ => ⟨S128x32, .f32⟩
  | .local _ .vmem, ⟨1, _⟩ => ⟨S128x32, .f32⟩
  | .local _ .vmem, ⟨2, _⟩ => ⟨S4096x32, .f32⟩
  | .local _ .vmem, ⟨3, _⟩ => ⟨S128, .f32⟩
  | .local _ .vmem, ⟨4, _⟩ => ⟨S128, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x32_S4096x32_0_0 : ∀ a, (![0, 0] : Fin 2 → Nat) a + S4096x32.size a ≤ S4096x32.size a
  h_S4096x32 : 0 < S4096x32.numel
  transposes_S4096x32_p1_0_S32x4096 : S4096x32.Transposes [1, 0] S32x4096
  inb_S128x32_S128x1_0_0 : ∀ a, (![0, 0] : Fin 2 → Nat) a + S128x1.size a ≤ S128x32.size a
  h_S128x1 : 0 < S128x1.numel
  slices_S32x4096_o0_0_S1x4096 : S32x4096.Slices ![0, 0] S1x4096
  broadcasts_S128x1_S128x4096 : S128x1.Broadcasts S128x4096
  broadcasts_S1x4096_S128x4096 : S1x4096.Broadcasts S128x4096
  natLt_1_32 : 1 < 32
  inb_S128x32_S128x1_0_1 : ∀ a, (![0, 1] : Fin 2 → Nat) a + S128x1.size a ≤ S128x32.size a
  slices_S32x4096_o1_0_S1x4096 : S32x4096.Slices ![1, 0] S1x4096
  inb_S128x32_S128x1_0_2 : ∀ a, (![0, 2] : Fin 2 → Nat) a + S128x1.size a ≤ S128x32.size a
  slices_S32x4096_o2_0_S1x4096 : S32x4096.Slices ![2, 0] S1x4096
  inb_S128x32_S128x1_0_3 : ∀ a, (![0, 3] : Fin 2 → Nat) a + S128x1.size a ≤ S128x32.size a
  slices_S32x4096_o3_0_S1x4096 : S32x4096.Slices ![3, 0] S1x4096
  inb_S128x32_S128x1_0_4 : ∀ a, (![0, 4] : Fin 2 → Nat) a + S128x1.size a ≤ S128x32.size a
  slices_S32x4096_o4_0_S1x4096 : S32x4096.Slices ![4, 0] S1x4096
  inb_S128x32_S128x1_0_5 : ∀ a, (![0, 5] : Fin 2 → Nat) a + S128x1.size a ≤ S128x32.size a
  slices_S32x4096_o5_0_S1x4096 : S32x4096.Slices ![5, 0] S1x4096
  inb_S128x32_S128x1_0_6 : ∀ a, (![0, 6] : Fin 2 → Nat) a + S128x1.size a ≤ S128x32.size a
  slices_S32x4096_o6_0_S1x4096 : S32x4096.Slices ![6, 0] S1x4096
  inb_S128x32_S128x1_0_7 : ∀ a, (![0, 7] : Fin 2 → Nat) a + S128x1.size a ≤ S128x32.size a
  slices_S32x4096_o7_0_S1x4096 : S32x4096.Slices ![7, 0] S1x4096
  inb_S128x32_S128x1_0_8 : ∀ a, (![0, 8] : Fin 2 → Nat) a + S128x1.size a ≤ S128x32.size a
  slices_S32x4096_o8_0_S1x4096 : S32x4096.Slices ![8, 0] S1x4096
  inb_S128x32_S128x1_0_9 : ∀ a, (![0, 9] : Fin 2 → Nat) a + S128x1.size a ≤ S128x32.size a
  slices_S32x4096_o9_0_S1x4096 : S32x4096.Slices ![9, 0] S1x4096
  inb_S128x32_S128x1_0_10 : ∀ a, (![0, 10] : Fin 2 → Nat) a + S128x1.size a ≤ S128x32.size a
  slices_S32x4096_o10_0_S1x4096 : S32x4096.Slices ![10, 0] S1x4096
  inb_S128x32_S128x1_0_11 : ∀ a, (![0, 11] : Fin 2 → Nat) a + S128x1.size a ≤ S128x32.size a
  slices_S32x4096_o11_0_S1x4096 : S32x4096.Slices ![11, 0] S1x4096
  inb_S128x32_S128x1_0_12 : ∀ a, (![0, 12] : Fin 2 → Nat) a + S128x1.size a ≤ S128x32.size a
  slices_S32x4096_o12_0_S1x4096 : S32x4096.Slices ![12, 0] S1x4096
  inb_S128x32_S128x1_0_13 : ∀ a, (![0, 13] : Fin 2 → Nat) a + S128x1.size a ≤ S128x32.size a
  slices_S32x4096_o13_0_S1x4096 : S32x4096.Slices ![13, 0] S1x4096
  inb_S128x32_S128x1_0_14 : ∀ a, (![0, 14] : Fin 2 → Nat) a + S128x1.size a ≤ S128x32.size a
  slices_S32x4096_o14_0_S1x4096 : S32x4096.Slices ![14, 0] S1x4096
  inb_S128x32_S128x1_0_15 : ∀ a, (![0, 15] : Fin 2 → Nat) a + S128x1.size a ≤ S128x32.size a
  slices_S32x4096_o15_0_S1x4096 : S32x4096.Slices ![15, 0] S1x4096
  inb_S128x32_S128x1_0_16 : ∀ a, (![0, 16] : Fin 2 → Nat) a + S128x1.size a ≤ S128x32.size a
  slices_S32x4096_o16_0_S1x4096 : S32x4096.Slices ![16, 0] S1x4096
  inb_S128x32_S128x1_0_17 : ∀ a, (![0, 17] : Fin 2 → Nat) a + S128x1.size a ≤ S128x32.size a
  slices_S32x4096_o17_0_S1x4096 : S32x4096.Slices ![17, 0] S1x4096
  inb_S128x32_S128x1_0_18 : ∀ a, (![0, 18] : Fin 2 → Nat) a + S128x1.size a ≤ S128x32.size a
  slices_S32x4096_o18_0_S1x4096 : S32x4096.Slices ![18, 0] S1x4096
  inb_S128x32_S128x1_0_19 : ∀ a, (![0, 19] : Fin 2 → Nat) a + S128x1.size a ≤ S128x32.size a
  slices_S32x4096_o19_0_S1x4096 : S32x4096.Slices ![19, 0] S1x4096
  inb_S128x32_S128x1_0_20 : ∀ a, (![0, 20] : Fin 2 → Nat) a + S128x1.size a ≤ S128x32.size a
  slices_S32x4096_o20_0_S1x4096 : S32x4096.Slices ![20, 0] S1x4096
  inb_S128x32_S128x1_0_21 : ∀ a, (![0, 21] : Fin 2 → Nat) a + S128x1.size a ≤ S128x32.size a
  slices_S32x4096_o21_0_S1x4096 : S32x4096.Slices ![21, 0] S1x4096
  inb_S128x32_S128x1_0_22 : ∀ a, (![0, 22] : Fin 2 → Nat) a + S128x1.size a ≤ S128x32.size a
  slices_S32x4096_o22_0_S1x4096 : S32x4096.Slices ![22, 0] S1x4096
  inb_S128x32_S128x1_0_23 : ∀ a, (![0, 23] : Fin 2 → Nat) a + S128x1.size a ≤ S128x32.size a
  slices_S32x4096_o23_0_S1x4096 : S32x4096.Slices ![23, 0] S1x4096
  inb_S128x32_S128x1_0_24 : ∀ a, (![0, 24] : Fin 2 → Nat) a + S128x1.size a ≤ S128x32.size a
  slices_S32x4096_o24_0_S1x4096 : S32x4096.Slices ![24, 0] S1x4096
  inb_S128x32_S128x1_0_25 : ∀ a, (![0, 25] : Fin 2 → Nat) a + S128x1.size a ≤ S128x32.size a
  slices_S32x4096_o25_0_S1x4096 : S32x4096.Slices ![25, 0] S1x4096
  inb_S128x32_S128x1_0_26 : ∀ a, (![0, 26] : Fin 2 → Nat) a + S128x1.size a ≤ S128x32.size a
  slices_S32x4096_o26_0_S1x4096 : S32x4096.Slices ![26, 0] S1x4096
  inb_S128x32_S128x1_0_27 : ∀ a, (![0, 27] : Fin 2 → Nat) a + S128x1.size a ≤ S128x32.size a
  slices_S32x4096_o27_0_S1x4096 : S32x4096.Slices ![27, 0] S1x4096
  inb_S128x32_S128x1_0_28 : ∀ a, (![0, 28] : Fin 2 → Nat) a + S128x1.size a ≤ S128x32.size a
  slices_S32x4096_o28_0_S1x4096 : S32x4096.Slices ![28, 0] S1x4096
  inb_S128x32_S128x1_0_29 : ∀ a, (![0, 29] : Fin 2 → Nat) a + S128x1.size a ≤ S128x32.size a
  slices_S32x4096_o29_0_S1x4096 : S32x4096.Slices ![29, 0] S1x4096
  inb_S128x32_S128x1_0_30 : ∀ a, (![0, 30] : Fin 2 → Nat) a + S128x1.size a ≤ S128x32.size a
  slices_S32x4096_o30_0_S1x4096 : S32x4096.Slices ![30, 0] S1x4096
  inb_S128x32_S128x1_0_31 : ∀ a, (![0, 31] : Fin 2 → Nat) a + S128x1.size a ≤ S128x32.size a
  slices_S32x4096_o31_0_S1x4096 : S32x4096.Slices ![31, 0] S1x4096
  reduces_S128x4096_S128 : S128x4096.Reduces [1] S128
  inb_S128_S128_0 : ∀ a, (![0] : Fin 1 → Nat) a + S128.size a ≤ S128.size a
  h_S128 : 0 < S128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32.size a ≤ S1024x32.size a
  hwx0_0 : ∀ i : grid0.Coords, EltTy.bits .f32 = 32 ∨ (Rect.block (s := S1024x32) S128x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4096x32.size a
  hwx0_1 : ∀ i : grid0.Coords, EltTy.bits .f32 = 32 ∨ (Rect.block (s := S4096x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S1024.size a
  hwx0_2 : ∀ i : grid0.Coords, EltTy.bits .f32 = 32 ∨ (Rect.block (s := S1024) S128.size (cc0_transform_2 i) (hinb0_2 i)).WholeWords (EltTy.packing .f32)

variable [Facts₀]

abbrev win0_0 : Pipeline.Window sig grid0 :=
  Pipeline.Window.ofSpec (Memref.whole main_arg0) S128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x32 : Shape := ⟨2, ![1024, 32]⟩
abbrev S4096x32 : Shape := ⟨2, ![4096, 32]⟩
abbrev S1024x1x32 : Shape := ⟨3, ![1024, 1, 32]⟩
abbrev S1x4096x32 : Shape := ⟨3, ![1, 4096, 32]⟩
abbrev S1024x4096x32 : Shape := ⟨3, ![1024, 4096, 32]⟩
abbrev S_ : Shape := ⟨0, ![]⟩
abbrev S1024x4096 : Shape := ⟨2, ![1024, 4096]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S4096x32, .f32⟩
  | .hbm, ⟨2, _⟩ => ⟨S1024x1x32, .f32⟩
  | .hbm, ⟨3, _⟩ => ⟨S1x4096x32, .f32⟩
  | .hbm, ⟨4, _⟩ => ⟨S1024x4096x32, .f32⟩
  | .hbm, ⟨5, _⟩ => ⟨S1024x4096x32, .f32⟩
  | .hbm, ⟨6, _⟩ => ⟨S1024x4096x32, .f32⟩
  | .hbm, ⟨7, _⟩ => ⟨S1024x4096x32, .f32⟩
  | .hbm, ⟨8, _⟩ => ⟨S_, .f32⟩
  | .hbm, ⟨9, _⟩ => ⟨S1024x4096x32, .f32⟩
  | .hbm, ⟨10, _⟩ => ⟨S1024x4096x32, .f32⟩
  | .hbm, ⟨11, _⟩ => ⟨S_, .f32⟩
  | .hbm, ⟨12, _⟩ => ⟨S1024x4096x32, .f32⟩
  | .hbm, ⟨13, _⟩ => ⟨S1024x4096x32, .i1⟩
  | .hbm, ⟨14, _⟩ => ⟨S_, .i1⟩
  | .hbm, ⟨15, _⟩ => ⟨S1024x4096, .i1⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S1024x32_S1024x1x32_0_2 : S1024x32.BroadcastsInDim S1024x1x32 (![0, 2] : Fin 2 → Fin S1024x1x32.rank)
  bcast_S4096x32_S1x4096x32_1_2 : S4096x32.BroadcastsInDim S1x4096x32 (![1, 2] : Fin 2 → Fin S1x4096x32.rank)
  bcast_S1024x1x32_S1024x4096x32_0_1_2 : S1024x1x32.BroadcastsInDim S1024x4096x32 (![0, 1, 2] : Fin 3 → Fin S1024x4096x32.rank)
  bcast_S1x4096x32_S1024x4096x32_0_1_2 : S1x4096x32.BroadcastsInDim S1024x4096x32 (![0, 1, 2] : Fin 3 → Fin S1024x4096x32.rank)
  bcast_S_S1024x4096x32 : S_.BroadcastsInDim S1024x4096x32 (![] : Fin 0 → Fin S1024x4096x32.rank)
  reducesTo_S1024x4096x32_S1024x4096_d2 : S1024x4096x32.ReducesTo [2] S1024x4096
  h_S_ : 0 < S_.numel
  bcast_S_S1024x4096 : S_.BroadcastsInDim S1024x4096 (![] : Fin 0 → Fin S1024x4096.rank)
  reducesTo_S1024x4096_S1024_d1 : S1024x4096.ReducesTo [1] S1024
  bcast_S_S1024 : S_.BroadcastsInDim S1024 (![] : Fin 0 → Fin S1024.rank)

variable [Facts₀]

class Facts : Prop extends Facts₀ where

variable [Facts]
-- ==== Proof.Spec.lean ====
/-
  The mathematics of the Parzen-window estimate, with no program in sight.

  For a test row `t` and a train row `x` of 32 features each, the train row is INSIDE the window when every feature
  differs by at most a quarter: `|t i - x i| ≤ 1/4` for all `i`. The estimate at a test row is the number of train rows
  inside its window, times `2^20`.

  One program spells this as a product over the features of the 0/1 values of `|t i - x i| ≤ 1/4`, summed over the
  train rows and multiplied by `2^20`. The other spells it as the conjunction over the features of
  `|t i - x i| / (1/2) ≤ 1/2`, read as 0/1, multiplied by `2^32`, summed, and divided by `4096`. On the extended reals
  the two threshold tests agree at every value (at `+∞` both fail), a product of 0/1 values is the 0/1 value of the
  conjunction, and every term of either sum is a finite real, so the scalings `2^32 / 4096` and `2^20` agree.
-/
import Idealize.ShloMosaic.PureOps.Ideal
import Idealize.ShloMosaic.PureOps.Reduce
import Idealize.ShloMosaic.Lib.Affine
import Idealize.ShloMosaic.Lib.ValueIdx

noncomputable section

open scoped BigOperators

namespace Cert.Parzen

open Idealize.ShloMosaic Idealize.ShloMosaic.ValueIdx

/-! ## The float literals the two programs spell, as the reals they denote -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two32 : Ideal.ofBits .f32 0x4F800000#32 = ((4294967296 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_two20 : Ideal.ofBits .f32 0x49800000#32 = ((1048576 : ℝ) : EReal) := by
  simp [Ideal.ofBits, Ideal.ieee, -EReal.coe_mul]; norm_num

/-! ## One feature: inside the window's half-width -/

/-- `a` is within a quarter of `b`: `|a - b| ≤ 1/4`, the absolute value written as the larger of the difference and
    its negation. -/
def inside (a b : EReal) : Prop := max (a - b) (-(a - b)) ≤ ((1 / 4 : ℝ) : EReal)

open Classical in
/-- The 0/1 value of a proposition, as a real. -/
def ind (P : Prop) : ℝ := if P then 1 else 0

theorem ind_of {P : Prop} (h : P) : ind P = 1 := by unfold ind; rw [if_pos h]
theorem ind_of_not {P : Prop} (h : ¬P) : ind P = 0 := by unfold ind; rw [if_neg h]

theorem ind_congr {P Q : Prop} (h : P ↔ Q) : ind P = ind Q := by rw [propext h]

/-- A product of two 0/1 values is the 0/1 value of the conjunction. -/
theorem ind_mul (P Q : Prop) : ind P * ind Q = ind (P ∧ Q) := by
  by_cases hP : P
  · by_cases hQ : Q
    · rw [ind_of hP, ind_of hQ, ind_of ⟨hP, hQ⟩, mul_one]
    · rw [ind_of_not hQ, ind_of_not (P := P ∧ Q) (fun h => hQ h.2), mul_zero]
  · rw [ind_of_not hP, ind_of_not (P := P ∧ Q) (fun h => hP h.1), zero_mul]

/-- The comparison `≤` on the extended reals, as a bit. -/
theorem cmp_ole_iff (x y : EReal) : Ideal.cmp .ole x y = 1#1 ↔ x ≤ y := by
  show BitVec.ofBool (decide (x ≤ y)) = 1#1 ↔ x ≤ y
  by_cases h : x ≤ y
  · rw [decide_eq_true h]; exact ⟨fun _ => h, fun _ => rfl⟩
  · rw [decide_eq_false h]; exact ⟨fun e => absurd e (by decide), fun e => absurd e h⟩

/-- A bit that says `P`, read as an unsigned integer, is the 0/1 value of `P`. -/
theorem bit_toNat (b : BitVec 1) {P : Prop} (h : b = 1#1 ↔ P) : ((b.toNat : ℝ)) = ind P := by
  by_cases hb : b = 1#1
  · rw [ind_of (h.1 hb), hb]; norm_num
  · rw [ind_of_not (fun hp => hb (h.2 hp)), eq_zero_of_ne_one hb]; norm_num

/-- The same bit widened to 32 bits and read as a signed integer. -/
theorem bit_toInt (b : BitVec 1) {P : Prop} (h : b = 1#1 ↔ P) : ((((b.setWidth 32).toInt : ℤ)) : ℝ) = ind P := by
  by_cases hb : b = 1#1
  · rw [ind_of (h.1 hb), hb]; norm_num
  · rw [ind_of_not (fun hp => hb (h.2 hp)), eq_zero_of_ne_one hb]; norm_num

/-- Halving the threshold test: `u / (1/2) ≤ 1/2` exactly when `u ≤ 1/4`, at the infinities too. -/
theorem half_iff (u : EReal) :
    Ideal.div u ((1 / 2 : ℝ) : EReal) ≤ ((1 / 2 : ℝ) : EReal) ↔ u ≤ ((1 / 4 : ℝ) : EReal) := by
  rw [Ideal.div_coe (by norm_num : (1 / 2 : ℝ) ≠ 0)]
  induction u using EReal.rec with
  | bot =>
    rw [EReal.bot_mul_coe_of_pos (by norm_num)]
    exact ⟨fun _ => bot_le, fun _ => bot_le⟩
  | coe r =>
    rw [← EReal.coe_mul, EReal.coe_le_coe_iff, EReal.coe_le_coe_iff]
    constructor <;> intro h <;> norm_num at h ⊢ <;> linarith
  | top =>
    rw [EReal.top_mul_coe_of_pos (by norm_num)]
    exact ⟨fun h => absurd h (not_le.2 (EReal.coe_lt_top _)), fun h => absurd h (not_le.2 (EReal.coe_lt_top _))⟩

/-- The kernel's factor for one feature: compare `|a - b|` with a quarter, widen the bit, read it signed. -/
theorem kernel_factor (a b : EReal) :
    (((((Ideal.cmp .ole (max (a - b) (-(a - b))) (Ideal.ofBits .f32 0x3E800000#32)).setWidth 32).toInt : ℤ) : ℝ) : EReal)
      = ((ind (inside a b) : ℝ) : EReal) := by
  have h : Ideal.cmp .ole (max (a - b) (-(a - b))) (Ideal.ofBits .f32 0x3E800000#32) = 1#1 ↔ inside a b := by
    unfold inside
    rw [cmp_ole_iff, ofBits_quarter]
  rw [bit_toInt _ h]

/-- The reference's bit for one feature: compare `|a - b| / (1/2)` with a half. -/
theorem reference_bit (a b : EReal) :
    Ideal.cmp .ole (Ideal.div (max (a - b) (-(a - b))) (Ideal.ofBits .f32 0x3F000000#32)) (Ideal.ofBits .f32 0x3F000000#32) = 1#1
      ↔ inside a b := by
  rw [cmp_ole_iff, ofBits_half]
  exact half_iff _

/-! ## All features: a fold of `and`, a product of 0/1 values -/

/-- A fold of `and` over one-bit words from `1` is `1` exactly when every word is. -/
theorem fold_andi_eq_one {ι : Type} [DecidableEq ι] (f : ι → BitVec 1) (s : Finset ι) :
    s.fold IntOp.andi (1#1) f = 1#1 ↔ ∀ i ∈ s, f i = 1#1 := by
  induction s using Finset.induction_on with
  | empty => simp
  | insert a s ha ih =>
    rw [Finset.fold_insert ha, IntOp.andi_eq_one, ih]
    constructor
    · rintro ⟨h1, h2⟩ i hi
      rcases Finset.mem_insert.1 hi with rfl | hi
      · exact h1
      · exact h2 i hi
    · intro h
      exact ⟨h a (Finset.mem_insert_self a s), fun i hi => h i (Finset.mem_insert_of_mem hi)⟩

/-- A product of 0/1 values over the first `n` naturals is the 0/1 value of "all of them". -/
theorem prod_ind_range (Q : ℕ → Prop) (n : ℕ) :
    ∏ k ∈ Finset.range n, ((ind (Q k) : ℝ) : EReal) = ((ind (∀ k < n, Q k) : ℝ) : EReal) := by
  induction n with
  | zero =>
    rw [Finset.prod_range_zero, ind_of (fun k hk => absurd hk (Nat.not_lt_zero k)), EReal.coe_one]
  | succ n ih =>
    rw [Finset.prod_range_succ, ih, ← EReal.coe_mul, ind_mul]
    refine congrArg _ (ind_congr ⟨fun h k hk => ?_, fun h => ⟨fun k hk => h k (Nat.lt_succ_of_lt hk), h n (Nat.lt_succ_self n)⟩⟩)
    rcases Nat.lt_succ_iff_lt_or_eq.1 hk with hk | rfl
    · exact h.1 k hk
    · exact h.2

/-- The feature number `k` as a coordinate (used below 32 only). -/
def feat (k : ℕ) : Fin 32 := ⟨k % 32, Nat.mod_lt k (by decide)⟩

theorem feat_of_lt {k : ℕ} (h : k < 32) : feat k = ⟨k, h⟩ := Fin.ext (Nat.mod_eq_of_lt h)

/-- "For every feature" over the coordinates is "for every `k` below 32" over the numbers. -/
theorem forall_feat (P : Fin 32 → Prop) : (∀ k < 32, P (feat k)) ↔ ∀ i : Fin 32, P i :=
  ⟨fun h i => by have := h i.val i.isLt; rwa [feat_of_lt i.isLt] at this, fun h k _ => h (feat k)⟩

/-! ## The sums and their scalings -/

/-- The coercion from the reals commutes with finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- One program's scaling: the sum times `2^20`. -/
theorem scale_mul {n : ℕ} (f : Fin n → ℝ) :
    (∑ q : Fin n, ((f q : ℝ) : EReal)) * Ideal.ofBits .f32 0x49800000#32 = (((∑ q : Fin n, f q) * 1048576 : ℝ) : EReal) := by
  rw [ofBits_two20, ← coe_sum, ← EReal.coe_mul]

/-- The other program's: each term times `2^32`, summed from zero, divided by `4096`. -/
theorem scale_div {n : ℕ} (f : Fin n → ℝ) :
    Ideal.div (Ideal.ofBits .f32 0x00000000#32 + ∑ q : Fin n, Ideal.ofBits .f32 0x4F800000#32 * ((f q : ℝ) : EReal))
        (Ideal.ofBits .f32 0x45800000#32)
      = (((∑ q : Fin n, f q) * 1048576 : ℝ) : EReal) := by
  rw [ofBits_zero, zero_add, ofBits_two32, ofBits_4096, Ideal.div_coe (by norm_num : (4096 : ℝ) ≠ 0)]
  simp only [← EReal.coe_mul]
  rw [← coe_sum, ← EReal.coe_mul, ← Finset.mul_sum]
  refine congrArg _ ?_
  ring

/-! ## The estimate -/

/-- The estimate at row `r` of the test rows `t` against the 4096 train rows `x`: the number of train rows inside the
    window of `t r`, times `2^20`. -/
def estimate {N : ℕ} (t : (⟨2, ![N, 32]⟩ : Shape).Idx → EReal) (x : (⟨2, ![4096, 32]⟩ : Shape).Idx → EReal) (r : Fin N) : EReal :=
  (((∑ q : Fin 4096, ind (∀ i : Fin 32, inside (t (ix2 r i)) (x (ix2 q i)))) * 1048576 : ℝ) : EReal)

/-- The estimate as an array over the 1024 test rows. -/
def estimates (t : (⟨2, ![1024, 32]⟩ : Shape).Idx → EReal) (x : (⟨2, ![4096, 32]⟩ : Shape).Idx → EReal) :
    (⟨1, ![1024]⟩ : Shape).Idx → EReal :=
  fun j => estimate t x ⟨(j 0).val, (j 0).isLt⟩

theorem estimates_ix1 (t : (⟨2, ![1024, 32]⟩ : Shape).Idx → EReal) (x : (⟨2, ![4096, 32]⟩ : Shape).Idx → EReal) (r : Fin 1024) :
    estimates t x (ix1 r) = estimate t x r := rfl

/-- The estimate depends on the test rows only through the row asked for, and on the train rows entry by entry. -/
theorem estimate_congr {N N' : ℕ} (t : (⟨2, ![N, 32]⟩ : Shape).Idx → EReal) (t' : (⟨2, ![N', 32]⟩ : Shape).Idx → EReal)
    (x x' : (⟨2, ![4096, 32]⟩ : Shape).Idx → EReal) (r : Fin N) (r' : Fin N') (ht : ∀ i : Fin 32, t (ix2 r i) = t' (ix2 r' i))
    (hx : ∀ (q : Fin 4096) (i : Fin 32), x (ix2 q i) = x' (ix2 q i)) :
    estimate t x r = estimate t' x' r' := by
  unfold estimate
  simp only [ht, hx]

end Cert.Parzen

end
-- ==== Proof.Coords.lean ====
/-
  The block's layout operations, read at coordinates.

  A test block is 128 rows of 32 features; the train array is 4096 rows of 32 features. The body works on
  128 × 4096 tables: entry (p, q) pairs test row p with train row q. Feature k of the test rows arrives as a
  128 × 1 column stretched along q; feature k of the train rows as row k of the transposed train array, a
  1 × 4096 row stretched along p. The sum along q of a 128 × 4096 table is a sum over the 4096 train rows.
-/
import Idealize.ShloMosaic.Lib.Pipeline.Value
import Idealize.ShloMosaic.Lib.Pipeline.FrameBody
import Idealize.ShloMosaic.Lib.ValueIdx
import Idealize.ShloMosaic.PureOps.Ideal.Laws
import proofs.«146012_j82463372083230_1_alg».proof.Proof.Spec

noncomputable section

open scoped BigOperators

namespace Cert.Parzen

open Idealize.ShloMosaic Idealize.ShloMosaic.ValueIdx

/-- 128 test rows by 32 features. -/
abbrev TestBlk : Shape := ⟨2, ![128, 32]⟩
/-- 4096 train rows by 32 features. -/
abbrev Train : Shape := ⟨2, ![4096, 32]⟩
/-- The train array transposed: 32 features by 4096 train rows. -/
abbrev TrainT : Shape := ⟨2, ![32, 4096]⟩
/-- One feature of the 128 test rows. -/
abbrev Col : Shape := ⟨2, ![128, 1]⟩
/-- One feature of the 4096 train rows. -/
abbrev Row : Shape := ⟨2, ![1, 4096]⟩
/-- A table over the pairs (test row, train row). -/
abbrev Pairs : Shape := ⟨2, ![128, 4096]⟩
/-- One value per test row of the block. -/
abbrev Rows : Shape := ⟨1, ![128]⟩

variable {α : Type}

/-- A column stretched along the train rows reads the column at the test row. -/
theorem stretch_col (col : Col.Idx → α) (h : Col.Broadcasts Pairs) (p : Fin 128) (q : Fin 4096) :
    broadcastTo Pairs col h (ix2 p q) = col (ix2 p 0) :=
  broadcastTo_apply col h (ix2 p q) (ix2 p 0) (fun a => match a with
    | ⟨0, _⟩ => by show p.val = if (128 : Nat) = 1 then 0 else p.val; rw [if_neg (by decide)]
    | ⟨1, _⟩ => by show 0 = if (1 : Nat) = 1 then 0 else q.val; rw [if_pos rfl])

/-- A row stretched along the test rows reads the row at the train row. -/
theorem stretch_row (row : Row.Idx → α) (h : Row.Broadcasts Pairs) (p : Fin 128) (q : Fin 4096) :
    broadcastTo Pairs row h (ix2 p q) = row (ix2 0 q) :=
  broadcastTo_apply row h (ix2 p q) (ix2 0 q) (fun a => match a with
    | ⟨0, _⟩ => by show 0 = if (1 : Nat) = 1 then 0 else p.val; rw [if_pos rfl]
    | ⟨1, _⟩ => by show q.val = if (4096 : Nat) = 1 then 0 else q.val; rw [if_neg (by decide)])

/-- Row `k` of the transposed train array, at train row `q`. -/
theorem feature_row (k : ℕ) (v : TrainT.Idx → α) (h : TrainT.Slices ![k, 0] Row) (q : Fin 4096) :
    extractStridedSlice Row ![k, 0] v h (ix2 0 q) = v (ix2 (feat k) q) := by
  have hk : k + 1 ≤ 32 := h.2 0
  exact extractStridedSlice_apply ![k, 0] v h (ix2 0 q) (ix2 (feat k) q) (fun a => match a with
    | ⟨0, _⟩ => by show k % 32 = k + 0; rw [Nat.mod_eq_of_lt (by omega)]; rfl
    | ⟨1, _⟩ => by show q.val = 0 + q.val; omega)

/-- The transposed train array at (feature, train row) is the train array at (train row, feature). -/
theorem transposed (v : Train.Idx → α) (h : Train.Transposes [1, 0] TrainT) (i : Fin 32) (q : Fin 4096) :
    transpose TrainT [1, 0] v h (ix2 i q) = v (ix2 q i) :=
  transpose_apply [1, 0] v h (ix2 i q) (ix2 q i) (fun b => match b with
    | ⟨0, _⟩ => rfl
    | ⟨1, _⟩ => rfl)

/-- Feature `k` of the test block, loaded as a column through the unit rectangle at column `k`. -/
theorem feature_col_idx (k : ℕ) (inb : ∀ a, (![0, k] : Fin 2 → ℕ) a + Col.size a ≤ TestBlk.size a) (p : Fin 128) :
    (Rect.unit (s := TestBlk) ![0, k] Col.size inb).idx (ix2 p 0) = ix2 p (feat k) := by
  have hk : k + 1 ≤ 32 := inb 1
  funext a
  match a with
  | ⟨0, _⟩ => exact Fin.ext (by show 0 + 1 * p.val = p.val; omega)
  | ⟨1, _⟩ => exact Fin.ext (by show k + 1 * 0 = k % 32; rw [Nat.mod_eq_of_lt (by omega)]; omega)

theorem feature_col {Val : EltTy → Type} {e : EltTy} (X : TestBlk.Idx → Val e) (k : ℕ) (inb : ∀ a, (![0, k] : Fin 2 → ℕ) a + Col.size a ≤ TestBlk.size a)
    (p : Fin 128) : View.ld X (Rect.unit (s := TestBlk) ![0, k] Col.size inb) (ix2 p 0) = X (ix2 p (feat k)) :=
  congrArg X (feature_col_idx k inb p)

/-- The sum along the train rows of a table, at test row `p`. -/
theorem sum_train (src : FVec Ideal Pairs .f32) (h : Pairs.Reduces [1] Rows) (hφ : FKind.Formats .f32)
    (hacc : (0x00000000#32 : BitVec 32) = 0x00000000#32) (p : Fin 128) :
    multiReduction .add [1] Rows src 0x00000000#32 h hφ hacc (ix1 p) = ∑ q : Fin 4096, src (ix2 p q) := by
  refine (Ideal.reduceAdd_single h src (ix1 p)).trans ?_
  exact Finset.sum_congr rfl fun q _ => congrArg src (funext fun a => Fin.ext (by match a with | ⟨0, _⟩ => rfl | ⟨1, _⟩ => rfl))

/-- Absolute value at an index. -/
theorem absf_apply {s : Shape} {φ : FTy} (a : FVec Ideal s φ) (i : s.Idx) : absf a i = max (a i) (-(a i)) := rfl

end Cert.Parzen

end
-- ==== Proof.BlockRow.lean ====
/-
  One test row of one block: what the body leaves at row `p` of its 128-row output block.

  The body builds, for the block's 128 test rows against all 4096 train rows, the table whose entry (p, q) is the
  product over the 32 features of the 0/1 value of `|test p k - train q k| ≤ 1/4`, the product started from 1 and
  taken feature by feature; it then sums each row of the table over q and multiplies by 2^20. Read at row `p`, that
  is the estimate of the block's row `p` against the train rows: a product of 0/1 values is the 0/1 value of
  "inside on every feature", and a sum of such values times 2^20 is a real number.
-/
import proofs.«146012_j82463372083230_1_alg».proof.Proof.Gen.KernelIdeal.Frame
import proofs.«146012_j82463372083230_1_alg».proof.Proof.Coords

noncomputable section

open scoped BigOperators

namespace Cert.Parzen

open Idealize.ShloMosaic Idealize.ShloMosaic.ValueIdx Cert.KernelIdeal Cert.KernelIdeal.Gen

theorem zeros1 : (![0] : Fin 1 → ℕ) = fun _ => 0 := funext fun a => by match a with | ⟨0, _⟩ => rfl
theorem zeros2 : (![0, 0] : Fin 2 → ℕ) = fun _ => 0 := funext fun a => by match a with | ⟨0, _⟩ => rfl | ⟨1, _⟩ => rfl

/-- The transposed train block at (feature, train row) is the train block at (train row, feature). -/
theorem trainT_apply (x1 : Vec Ideal S4096x32 .f32) (i : Fin 32) (q : Fin 4096) :
    k0_pay2 x1 (ix2 i q) = x1 (ix2 q i) := by
  unfold k0_pay2
  exact transposed x1 _ i q

/-- One feature's factor, in the operations' own spelling: the comparison of `|a - b|` with a quarter, widened and
    read as a signed integer, is the 0/1 value of `inside a b`. -/
theorem factor_eq (a b : Ideal .f32) :
    FloatOps.sitofp (F := Ideal) .f32 (BitVec.setWidth 32 (FloatOps.cmpf (F := Ideal) (φ := .f32) .ole (max (a - b) (-(a - b)))
        (Ideal.ofBits .f32 0x3E800000#32)))
      = ((ind (inside a b) : ℝ) : EReal) :=
  kernel_factor a b

/-- Row `p` of the block the body leaves: the estimate of the block's test row `p` against the train rows. -/
theorem block_row (x0 : Vec Ideal S128x32 .f32) (x1 : Vec Ideal S4096x32 .f32) (p : Fin 128) :
    out0_2 (F := Ideal) x0 x1 (ix1 p) = estimate x0 x1 p := by
  unfold out0_2
  rw [View.canon_unit_zero zeros1]
  simp only [View.ld_unit_zero (S := S4096x32) zeros2]
  unfold k0_pay1
  dsimp only
  rw [mulf_apply, broadcast_apply]
  refine (congrArg (· * _) ((sum_train _ _ _ _ p).trans (Finset.sum_congr rfl
    (g := fun q => ((ind (∀ i : Fin 32, inside (x0 (ix2 p i)) (x1 (ix2 q i))) : ℝ) : EReal)) fun q _ => ?_))).trans ?_
  · -- entry (p, q) of the table: the product over the features, feature by feature
    refine Eq.trans ?_ ((prod_ind_range (fun k => inside (x0 (ix2 p (feat k))) (x1 (ix2 q (feat k)))) 32).trans
      (congrArg (fun r : ℝ => (r : EReal)) (ind_congr (forall_feat (fun i => inside (x0 (ix2 p i)) (x1 (ix2 q i)))))))
    simp only [k0_pay3, k0_pay4, k0_pay5, k0_pay6, k0_pay7, k0_pay8, k0_pay9, k0_pay10, k0_pay11, k0_pay12, k0_pay13,
      k0_pay14, k0_pay15, mulf_apply, sitofp_apply, extui_apply, cmpf_apply, absf_apply, subf_apply, broadcast_apply,
      stretch_col, stretch_row, feature_row, trainT_apply, View.ld, feature_col_idx, factor_eq,
      Finset.prod_range_succ, Finset.prod_range_zero, Ideal.ofBits_def, ofBits_one]
  · -- the row sum times 2^20
    exact scale_mul (fun q => ind (∀ i : Fin 32, inside (x0 (ix2 p i)) (x1 (ix2 q i))))

end Cert.Parzen

end
-- ==== Proof.Rows.lean ====
/-
  From blocks to the array: what the kernel leaves in its result array.

  The grid has 8 points. At point `t` the test window is rows `128 t … 128 t + 127` of the test array, the train
  window is the whole train array at every point, and the output window is entries `128 t … 128 t + 127` of the
  result. So what point `t` writes back, row `r` of its block being the estimate of the block's test row `r`, is
  entries `128 t + r` of the array of estimates; the 8 blocks tile the 1024 entries (entry `i` lies in block
  `i / 128`), so the result array ends as the array of estimates of the argument arrays.
-/
import proofs.«146012_j82463372083230_1_alg».proof.Proof.Gen.KernelIdeal.Value
import proofs.«146012_j82463372083230_1_alg».proof.Proof.BlockRow

noncomputable section

namespace Cert.Parzen

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The printed index maps over the 8 grid points: the test and output windows move with the point along the rows,
    the train window stays at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = t.val :=
  (by decide +kernel : ∀ t : Fin grid0.N, _)

/-- What point `t` writes back is block `t` of the array of estimates of the argument arrays. -/
theorem flushed_eq (c : Dev nD) (t : Fin cfg0.N) :
    (dats m 0 c).flushed 2 t
      = ((cfg0.win 2).blk t).view.read (Elt Ideal) (estimates (V m c main_arg0) (V m c main_arg1)) := by
  rw [Cert.KernelIdeal.Value.flushed2]
  obtain ⟨e00, e01, e10, e11, e2⟩ := index_facts t
  funext j
  obtain ⟨r, rfl⟩ : ∃ r : Fin 128, j = ix1 r := ⟨j 0, eq_ix1 j⟩
  show out0_2 (iblk m c 0 t) (iblk m c 1 t) (ix1 r)
    = estimates (V m c main_arg0) (V m c main_arg1) (((cfg0.win 2).blk t).view.emb (ix1 r))
  refine (block_row (iblk m c 0 t) (iblk m c 1 t) r).trans ?_
  show estimate (iblk m c 0 t) (iblk m c 1 t) r
    = estimate (V m c main_arg0) (V m c main_arg1)
        ⟨((((cfg0.win 2).blk t).view.emb (ix1 r)) 0).val, ((((cfg0.win 2).blk t).view.emb (ix1 r)) 0).isLt⟩
  refine estimate_congr (iblk m c 0 t) (V m c main_arg0) (iblk m c 1 t) (V m c main_arg1) r _ (fun i => ?_) (fun q i => ?_)
  · -- row r of the test block is row 128 t + r of the test array
    show V m c main_arg0 (((cfg0.win 0).blk t).view.emb (ix2 r i)) = V m c main_arg0 (ix2 _ i)
    refine congrArg (V m c main_arg0) (funext fun a => Fin.ext ?_)
    match a with
    | ⟨0, _⟩ =>
      show win0_0.index t (0 : Fin 2) * 128 + 1 * r.val = win0_2.index t (0 : Fin 1) * 128 + 1 * r.val
      rw [e00, e2]
    | ⟨1, _⟩ =>
      show win0_0.index t (1 : Fin 2) * 32 + 1 * i.val = i.val
      rw [e01]; omega
  · -- the train block is the train array
    show V m c main_arg1 (((cfg0.win 1).blk t).view.emb (ix2 q i)) = V m c main_arg1 (ix2 q i)
    refine congrArg (V m c main_arg1) (funext fun a => Fin.ext ?_)
    match a with
    | ⟨0, _⟩ =>
      show win0_1.index t (0 : Fin 2) * 4096 + 1 * q.val = q.val
      rw [e10]; omega
    | ⟨1, _⟩ =>
      show win0_1.index t (1 : Fin 2) * 32 + 1 * i.val = i.val
      rw [e11]; omega

/-- An entry of the result is in point `t`'s block when it lies in the block's 128 entries. -/
theorem mem_blk (t : Fin cfg0.N) (i : S1024.Idx) :
    i ∈ ((cfg0.win 2).blk t).view.set ↔ ∀ a : Fin 1, win0_2.index t a * S128.size a ≤ (i a).val
      ∧ (i a).val < win0_2.index t a * S128.size a + S128.size a := by
  show i ∈ ((View.whole main_v0).slice (win0_2.rect t)).set ↔ _
  rw [View.set_slice_whole, Rect.mem_set_unit]
  exact Iff.rfl

/-- The 8 blocks tile the 1024 entries: entry `i` lies in block `i / 128`. -/
theorem covered (i : S1024.Idx) :
    ∃ t : Fin cfg0.N, (cfg0.win 2).flush t = true ∧ i ∈ ((cfg0.win 2).blk t).view.set := by
  have hi : (i 0).val < 1024 := (i 0).isLt
  have hN : grid0.N = 8 := N_0
  let t : Fin cfg0.N := ⟨(i 0).val / 128, by show (i 0).val / 128 < grid0.N; rw [hN]; omega⟩
  obtain ⟨-, -, -, -, e2⟩ := index_facts t
  have e2' : win0_2.index t (0 : Fin 1) = (i 0).val / 128 := e2
  refine ⟨t, flush0_2 t, ?_⟩
  rw [mem_blk]
  intro a
  match a with
  | ⟨0, _⟩ =>
    show win0_2.index t (0 : Fin 1) * 128 ≤ (i 0).val ∧ (i 0).val < win0_2.index t (0 : Fin 1) * 128 + 128
    rw [e2']; omega

/-- The result array after the run is the array of estimates of the argument arrays. -/
theorem final (c : Dev nD) :
    (dats m 0 c).arrAt 2 cfg0.N
      = estimates (m ((c : Thread nD τ).loc main_arg0)) (m ((c : Thread nD τ).loc main_arg1)) :=
  (dats m 0 c).arrAt_eq_of_cover 2 (estimates (V m c main_arg0) (V m c main_arg1)) (fun t _ => flushed_eq m c t) covered

/-- The kernel's run: the result array at the estimates, the arguments unchanged. -/
theorem kernel_run : θ_run defs (onTc (τ := τ) (main (F := Ideal))) ⟨m, fun _ => 0, ρ⟩ fun r => ∀ c : Dev nD,
      r.2.mem ((c : Thread nD τ).loc main_v0)
        = estimates (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Parzen

end
-- ==== Proof.Reference.lean ====
/-
  The reference, read index by index, is the array of estimates.

  The reference forms the 1024 × 4096 × 32 table of differences `test r i - train k i`, divides the absolute values
  by a half and compares with a half, takes the conjunction over the 32 features (a fold of `and` from `true`), reads
  the resulting bit as 0/1, multiplies by 2^32, sums over the 4096 train rows from zero and divides by 4096. At test
  row `r` that is the number of train rows inside the window of test row `r`, times 2^20.
-/
import proofs.«146012_j82463372083230_1_alg».proof.Proof.Gen.ReferenceIdeal.Read
import proofs.«146012_j82463372083230_1_alg».proof.Proof.Spec
import Idealize.ShloMosaic.PureOps.Reduce

noncomputable section

open scoped BigOperators

namespace Cert.Parzen

open Idealize.ShloMosaic Idealize.ShloMosaic.ValueIdx
open Cert.ReferenceIdeal Cert.ReferenceIdeal.Gen Cert.ReferenceIdeal.Read

/-- One feature's bit: at (test row, train row, feature) the comparison says `inside`. -/
theorem inside_bit (x0 : (⟨S1024x32, .f32⟩ : BufTy).Contents (Elt Ideal)) (x1 : (⟨S4096x32, .f32⟩ : BufTy).Contents (Elt Ideal))
    (r : Fin 1024) (k : Fin 4096) (i : Fin 32) :
    val_main_v9 (F := Ideal) x0 x1 (ix3 r k i) = 1#1 ↔ inside (x0 (ix2 r i)) (x1 (ix2 k i)) := by
  have e0 : idx_main_v0 (idx_main_v2 (ix3 r k i)) = ix2 r i :=
    funext fun a => Fin.ext (by match a with | ⟨0, _⟩ => rfl | ⟨1, _⟩ => rfl)
  have e1 : idx_main_v1 (idx_main_v3 (ix3 r k i)) = ix2 k i :=
    funext fun a => Fin.ext (by match a with | ⟨0, _⟩ => rfl | ⟨1, _⟩ => rfl)
  rw [val_main_v9_apply, val_main_v7_apply, val_main_v5_apply, val_main_v4_apply, val_main_v2_apply, val_main_v0_apply,
    val_main_v3_apply, val_main_v1_apply, val_main_v6_apply, val_main_cst_apply, val_main_v8_apply, val_main_cst_0_apply,
    e0, e1]
  exact reference_bit _ _

/-- All features: the fold of `and` at (test row, train row) says "inside on every feature". -/
theorem all_inside (x0 : (⟨S1024x32, .f32⟩ : BufTy).Contents (Elt Ideal)) (x1 : (⟨S4096x32, .f32⟩ : BufTy).Contents (Elt Ideal))
    (r : Fin 1024) (k : Fin 4096) :
    val_main_v10 (F := Ideal) x0 x1 (ix2 r k) = 1#1 ↔ ∀ i : Fin 32, inside (x0 (ix2 r i)) (x1 (ix2 k i)) := by
  have hred : S1024x4096x32.Reduces [2] S1024x4096 := by decide
  have hlift : ∀ i : Fin 32, hred.lift (ix2 r k) i = ix3 r k i := fun i =>
    funext fun a => Fin.ext (by match a with | ⟨0, _⟩ => rfl | ⟨1, _⟩ => rfl | ⟨2, _⟩ => rfl)
  unfold val_main_v10
  rw [Host.reduce_eq_fold_single IntOp.andi _ _ reducesTo_S1024x4096x32_S1024x4096_d2 hred h_S_ (ix2 r k)]
  rw [show val_main_c (F := Ideal) (Shape.Idx.first h_S_) = 1#1 from rfl, fold_andi_eq_one]
  constructor
  · intro h i
    have hi : val_main_v9 (F := Ideal) x0 x1 (hred.lift (ix2 r k) i) = 1#1 := h i (Finset.mem_univ _)
    rw [hlift i] at hi
    exact (inside_bit x0 x1 r k i).1 hi
  · intro h i _
    show val_main_v9 (F := Ideal) x0 x1 (hred.lift (ix2 r k) i) = 1#1
    rw [hlift i]
    exact (inside_bit x0 x1 r k i).2 (h i)

/-- The reference's result is the array of estimates. -/
theorem reference_eq (x0 : (⟨S1024x32, .f32⟩ : BufTy).Contents (Elt Ideal)) (x1 : (⟨S4096x32, .f32⟩ : BufTy).Contents (Elt Ideal)) :
    val_main_v16 (F := Ideal) x0 x1 = estimates x0 x1 := by
  funext j
  obtain ⟨r, rfl⟩ : ∃ r : Fin 1024, j = ix1 r := ⟨j 0, eq_ix1 j⟩
  rw [estimates_ix1, val_main_v16_apply, val_main_v14_apply, val_main_v15_apply, val_main_cst_3_apply, val_main_cst_2_apply]
  have hterm : ∀ k : Fin 4096, val_main_v13 (F := Ideal) x0 x1 (idx_main_v14 (ix1 r) k)
      = Ideal.ofBits .f32 0x4F800000#32 * ((ind (∀ i : Fin 32, inside (x0 (ix2 r i)) (x1 (ix2 k i))) : ℝ) : EReal) := by
    intro k
    have ek : idx_main_v14 (ix1 r) k = ix2 r k :=
      funext fun a => Fin.ext (by match a with | ⟨0, _⟩ => rfl | ⟨1, _⟩ => rfl)
    rw [ek, val_main_v13_apply, val_main_v12_apply, val_main_cst_1_apply, val_main_v11_apply]
    show Ideal.ofBits .f32 0x4F800000#32 * (((val_main_v10 (F := Ideal) x0 x1 (ix2 r k)).toNat : ℝ) : EReal) = _
    rw [bit_toNat _ (all_inside x0 x1 r k)]
  simp only [hterm]
  exact scale_div (fun k => ind (∀ i : Fin 32, inside (x0 (ix2 r i)) (x1 (ix2 k i))))

end Cert.Parzen

end
-- ==== Proof.lean ====
/-
  A Parzen-window density estimate, two ways.

  Given 1024 test rows and 4096 train rows of 32 features each, the estimate at a test row counts the train rows
  that lie in its window (every feature within a quarter of the test row's) and scales the count by 2^20.

  The kernel works block by block over 128 test rows: for each pair (test row, train row) it multiplies, feature by
  feature from 1, the 0/1 values of `|test - train| ≤ 1/4`, sums the products over the train rows and multiplies by
  2^20. The reference builds all differences at once, tests `|test - train| / (1/2) ≤ 1/2`, takes the conjunction over
  the features, reads it as 0/1, multiplies by 2^32, sums over the train rows and divides by 4096.

  On the extended reals the two tests agree at every value, a product of 0/1 values is the 0/1 value of the
  conjunction, and both sums are sums of finite reals, where `2^32 / 4096 = 2^20`. So both programs end with the
  array of estimates (`Cert.Parzen.estimates`) of the same arguments; nothing here needs the inputs to be finite.

  The kernels' frames and the reference's run are the generated modules'; the kernel's result array is read off the
  generated blockwise run (Proof/BlockRow.lean: one row of one block; Proof/Rows.lean: the 8 blocks tile the array),
  the reference's off its generated run operation by operation (Proof/Reference.lean); the arithmetic both sides
  meet at is Proof/Spec.lean. The idealization rewrote no operation, so `preserves` has nothing to state.
-/
import proofs.«146012_j82463372083230_1_alg».proof.Defs
import proofs.«146012_j82463372083230_1_alg».proof.Proof.Gen.Kernel
import proofs.«146012_j82463372083230_1_alg».proof.Proof.Gen.Kernel.Skeleton
import proofs.«146012_j82463372083230_1_alg».proof.Proof.Gen.Kernel.Launch
import proofs.«146012_j82463372083230_1_alg».proof.Proof.Gen.Kernel.Points
import proofs.«146012_j82463372083230_1_alg».proof.Proof.Gen.Kernel.Frame
import proofs.«146012_j82463372083230_1_alg».proof.Proof.Gen.KernelIdeal
import proofs.«146012_j82463372083230_1_alg».proof.Proof.Gen.KernelIdeal.Skeleton
import proofs.«146012_j82463372083230_1_alg».proof.Proof.Gen.KernelIdeal.Launch
import proofs.«146012_j82463372083230_1_alg».proof.Proof.Gen.KernelIdeal.Points
import proofs.«146012_j82463372083230_1_alg».proof.Proof.Gen.KernelIdeal.Frame
import proofs.«146012_j82463372083230_1_alg».proof.Proof.Gen.ReferenceIdeal
import proofs.«146012_j82463372083230_1_alg».proof.Proof.Gen.Pre_finite_inputs
import proofs.«146012_j82463372083230_1_alg».proof.Proof.Gen.KernelIdeal.Value
import proofs.«146012_j82463372083230_1_alg».proof.Proof.Gen.ReferenceIdeal.Run
import proofs.«146012_j82463372083230_1_alg».proof.Proof.Gen.ReferenceIdeal.Read
import proofs.«146012_j82463372083230_1_alg».proof.Proof.Rows
import proofs.«146012_j82463372083230_1_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array and the reference's are both the array of estimates. -/
theorem algebraic : Cert.algebraic_KernelIdeal_ReferenceIdeal := by
  intro m ρ m' ρ' _ hagree
  refine ⟨fun c => Cert.Parzen.estimates
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Parzen.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Parzen.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
